-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : FVec F S640000 .f32) (main_arg2 : IVec S640000 32) (main_arg3 : IVec S640000 32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S50000x128 : Shape := ⟨2, ![50000, 128]⟩
abbrev S640000 : Shape := ⟨1, ![640000]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩
abbrev S5000x128 : Shape := ⟨2, ![5000, 128]⟩

abbrev nBuf : Space → Nat
  | .hbm => 23
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S640000, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S640000x1, .f32⟩
  | .hbm, ⟨15, _⟩ => ⟨S640000x128, .f32⟩
  | .hbm, ⟨16, _⟩ => ⟨S640000x128, .f32⟩
  | .hbm, ⟨17, _⟩ => ⟨S_, .f32⟩
  | .hbm, ⟨18, _⟩ => ⟨S50000x128, .f32⟩
  | .hbm, ⟨19, _⟩ => ⟨S640000x1, .i32⟩
  | .hbm, ⟨20, _⟩ => ⟨S50000x128, .f32⟩
  | .hbm, ⟨21, _⟩ => ⟨S128x128, .f32⟩
  | .hbm, ⟨22, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩

abbrev nBuf : Space → Nat
  | .hbm => 22
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S640000x1, .f32⟩
  | .hbm, ⟨15, _⟩ => ⟨S640000x128, .f32⟩
  | .hbm, ⟨16, _⟩ => ⟨S640000x128, .f32⟩
  | .hbm, ⟨17, _⟩ => ⟨S_, .f32⟩
  | .hbm, ⟨18, _⟩ => ⟨S50000x128, .f32⟩
  | .hbm, ⟨19, _⟩ => ⟨S640000x1, .i32⟩
  | .hbm, ⟨20, _⟩ => ⟨S50000x128, .f32⟩
  | .hbm, ⟨21, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_1_0_0_n_n_wf : DotDims.WF S50000x128 S128x128 S50000x128 [1] [1] [0] [0] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.LinearSpec.lean ====
/-
  The last stage of a weighted graph layer is one linear map applied to every node's aggregated row:

      out(n, o) = Σ_k A(n, k) · W(o, k),        n < 50000,   o, k < 128,

  where A is the [50000, 128] array of aggregated messages and W the [128, 128] weight in the
  [out_features, in_features] layout. Over the extended reals this one function of (A, W), read index by index, is what
  both programs compute: a product against the transposed weight taken 5000 rows at a time, and one product contracting
  the second axis of both operands, are the same sum over k at every entry.
-/
import Idealize.ShloMosaic.PureOps.Ideal.Laws
import Idealize.ShloMosaic.Lib.ValueIdx

noncomputable section

open scoped BigOperators

namespace Cert.Linear

open Idealize.ShloMosaic Idealize.ShloMosaic.ValueIdx

/-- The linear stage: entry (n, o) is the sum over k of A(n, k) · W(o, k). -/
def lin (A : FVec Ideal ⟨2, ![50000, 128]⟩ .f32) (W : FVec Ideal ⟨2, ![128, 128]⟩ .f32) :
    FVec Ideal ⟨2, ![50000, 128]⟩ .f32 :=
  fun i => ∑ k : Fin 128, A (ix2 (i 0) k) * W (ix2 (i 1) k)

/-- The linear stage at the entry (n, o). -/
theorem lin_apply (A : FVec Ideal ⟨2, ![50000, 128]⟩ .f32) (W : FVec Ideal ⟨2, ![128, 128]⟩ .f32)
    (n : Fin 50000) (o : Fin 128) :
    lin A W (ix2 n o) = ∑ k : Fin 128, A (ix2 n k) * W (ix2 o k) := rfl

end Cert.Linear

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.KernelBlocks.lean ====
/-
  The kernel's result array over the extended reals.

  The kernel takes the aggregated array A 5000 rows at a time: grid point t holds rows 5000·t … 5000·t + 4999 of A and
  the whole transposed weight Wt, and writes the block product  Σ_k A(5000·t + p, k) · Wt(k, q)  to the same rows of the
  result (narrowing both operands to bf16 first, which is the identity on the extended reals). The ten row blocks tile
  the 50000 rows, so the result array is, at every entry (n, o), the sum over k of A(n, k) · Wt(k, o); and Wt is the
  weight W read transposed, Wt(k, o) = W(o, k). Hence the result is the linear stage `Cert.Linear.lin A W`.
-/
import proofs.«119766_j7851200217799_1_alg».proof.Proof.Gen.KernelIdeal.Value
import proofs.«119766_j7851200217799_1_alg».proof.Proof.LinearSpec
import proofs.«119766_j7851200217799_1_alg».proof.Proof.LibDense
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.LinValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem zero_offsets : (![0, 0] : Fin 2 → Nat) = fun _ => 0 := funext fun a => by fin_cases a <;> rfl

/-- One block's product at (p, q): the sum over k of x(p, k) · w(k, q). Narrowing an operand to bf16 and casting it to
    its own shape leave it as it is on the extended reals. -/
theorem block_product_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  rw [shapeCast_self, shapeCast_self]
  exact Cert.Dense.matmul_zero_plain_apply dot_S5000x128_S128x128_S5000x128_1_0_0_1_n_n rfl rfl rfl rfl rfl rfl none
    (truncf .bf16 x bitsLt_bf16_f32) (truncf .bf16 w bitsLt_bf16_f32) p q

/-- The windows' index maps over the ten grid points: the aggregated array and the result move together along the rows,
    and every other block index is 0 (the weight is one block; all 128 columns are one block). -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the ten row blocks of the result is some grid point's. -/
theorem index_onto : ∀ b : Fin 10, ∃ t : Fin cfg0.N, win0_2.index t = ![b.val, 0] :=
  (by decide +kernel : ∀ b : Fin 10, ∃ t : Fin grid0.N, win0_2.index t = ![b.val, 0])

/-- The product of a [50000, 128] array with a [128, 128] array laid out [k, o]: entry (n, o) is Σ_k A(n, k) · Wt(k, o). -/
def blockwise (A : Vec Ideal S50000x128 .f32) (Wt : Vec Ideal S128x128 .f32) : Vec Ideal S50000x128 .f32 :=
  fun i => ∑ k : Fin 128, A (ix2 (i 0) k) * Wt (ix2 k (i 1))

/-- The aggregated array as the region finds it. -/
abbrev aggArr (c : Dev nD) : Vec Ideal S50000x128 .f32 := V m c main_v12
/-- The transposed weight as the region finds it. -/
abbrev wtArr (c : Dev nD) : Vec Ideal S128x128 .f32 := V m c main_v13

/-- What grid point t writes back is block t of `blockwise` of the two arrays the region finds: the rows of the
    aggregated block are rows 5000·t + p of the array, the weight block is the whole weight. -/
theorem flushed_eq (c : Dev nD) (t : Fin cfg0.N) :
    (dats m 0 c).flushed 2 t
      = ((cfg0.win 2).blk t).view.read (Elt Ideal) (blockwise (aggArr m c) (wtArr m c)) := by
  rw [flushed2]
  unfold out0_2
  rw [View.canon_unit_zero zero_offsets]
  simp only [View.ld_unit_zero (S := S5000x128) zero_offsets, View.ld_unit_zero (S := S128x128) zero_offsets]
  obtain ⟨e0, e1, e2, e3, e4⟩ := index_facts t
  funext j
  obtain ⟨p, q, rfl⟩ : ∃ (p : Fin 5000) (q : Fin 128), j = ix2 p q := ⟨j 0, j 1, eq_ix2 j⟩
  show k0_pay1 (F := Ideal) (iblk m c 0 t) (iblk m c 1 t) (ix2 p q)
    = blockwise (aggArr m c) (wtArr m c) (((cfg0.win 2).blk t).view.emb (ix2 p q))
  refine (block_product_apply (iblk m c 0 t) (iblk m c 1 t) p q).trans ?_
  refine Finset.sum_congr rfl fun k _ => ?_
  -- row p of the aggregated block is row 5000·t + p of the array, the row the result's block holds at p
  have hA : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  -- the weight block is the whole weight, and column q of the result's block is column q of the array
  have hW : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  show aggArr m c (((cfg0.win 0).blk t).view.emb (ix2 p k)) * wtArr m c (((cfg0.win 1).blk t).view.emb (ix2 k q)) = _
  rw [hA, hW]
  rfl

/-- An index of the result array lies in grid point t's block iff each coordinate lies in the block's range. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v14).slice (win0_2.rect t)).set ↔ _
  rw [View.set_slice_whole, Rect.mem_set_unit]
  exact Iff.rfl

/-- The ten row blocks tile the array: row n lies in block n / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the run is `blockwise` of the aggregated array and the transposed weight as the region finds them. -/
theorem final_blockwise (c : Dev nD) :
    (dats m 0 c).arrAt 2 cfg0.N = blockwise (aggArr m c) (wtArr m c) :=
  (dats m 0 c).arrAt_eq_of_cover 2 _ (fun t _ => flushed_eq m c t) covered

/-- Reading the weight transposed turns the product against Wt into the linear stage: Wt(k, o) = W(o, k). -/
theorem blockwise_transpose (A : Vec Ideal S50000x128 .f32) (W : Vec Ideal S128x128 .f32)
    (h : S128x128.Transposes [1, 0] S128x128) :
    blockwise A (transpose S128x128 [1, 0] W h) = Cert.Linear.lin A W := by
  funext i
  obtain ⟨n, o, rfl⟩ : ∃ (n : Fin 50000) (o : Fin 128), i = ix2 n o := ⟨i 0, i 1, eq_ix2 i⟩
  show ∑ k : Fin 128, A (ix2 n k) * transpose S128x128 [1, 0] W h (ix2 k o) = ∑ k : Fin 128, A (ix2 n k) * W (ix2 o k)
  refine Finset.sum_congr rfl fun k _ => ?_
  rw [transpose_ix2_apply W h k o]

end Cert.KernelIdeal.LinValue

end
-- ==== Proof.KernelRun.lean ====
/-
  The kernel's run, read: its result array ends at the linear stage of the aggregated array and the weight.

  Before the region the host transposes the weight, so the second operand the region finds is Wt with
  Wt(k, o) = W(o, k); the block products then assemble to  Σ_k A(n, k) · W(o, k)  at every entry of the result.
-/
import proofs.«119766_j7851200217799_1_alg».proof.Proof.KernelBlocks

noncomputable section

namespace Cert.KernelIdeal.LinValue

open Cert.KernelIdeal Cert.KernelIdeal.Gen Cert.KernelIdeal.Value Idealize.ShloMosaic Idealize.ShloMosaic.TcCoe Idealize.SL.Sem
open Idealize.ShloMosaic.StableHlo

variable (m : (ℓ : Loc nD τ sig) → Buf (Elt Ideal) ℓ) (ρ : Dev nD → PrngReg)

/-- The second operand the region finds is the weight argument transposed. -/
theorem wt_eq (c : Dev nD) :
    wtArr m c = transpose S128x128 [1, 0] (m ((c : Thread nD τ).loc main_arg4)) transposes_S128x128_S128x128_1_0 := by
  dsimp only [wtArr, Gen.V, Gen.hostOps0]
  after_results <;> rfl

/-- The result array after the run is the linear stage of the aggregated array and the weight argument. -/
theorem final_lin (c : Dev nD) :
    (dats m 0 c).arrAt 2 cfg0.N = Cert.Linear.lin (aggArr m c) (m ((c : Thread nD τ).loc main_arg4)) := by
  rw [final_blockwise, wt_eq, blockwise_transpose]

/-- Every weakly fair execution of the kernel's program terminates with the result array at the linear stage and the
    arguments as launched. -/
theorem run : θ_run defs (onTc (τ := τ) (main (F := Ideal))) ⟨m, fun _ => 0, ρ⟩ fun r => ∀ c : Dev nD,
      r.2.mem ((c : Thread nD τ).loc main_v14) = Cert.Linear.lin (aggArr m c) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_lin m c), (h c).2⟩) (run_blocks m ρ)

end Cert.KernelIdeal.LinValue

end
-- ==== Proof.ReferenceLinear.lean ====
/-
  The reference's result over the extended reals.

  The reference contracts axis 1 of the aggregated array A with axis 1 of the weight W in one product over all 50000
  rows: entry (n, o) is the sum over k of A(n, k) · W(o, k), the linear stage `Cert.Linear.lin A W` with nothing in
  between. Its left operand is read at (n, k) and its right operand at (o, k).
-/
import proofs.«119766_j7851200217799_1_alg».proof.Proof.Gen.ReferenceIdeal.Read
import proofs.«119766_j7851200217799_1_alg».proof.Proof.LinearSpec
import Idealize.ShloMosaic.Lib.ValueIdx

noncomputable section

open scoped BigOperators

namespace Cert.ReferenceIdeal.LinValue

open Cert.ReferenceIdeal Cert.ReferenceIdeal.Read Idealize.ShloMosaic Idealize.ShloMosaic.TcCoe
open Idealize.ShloMosaic.ValueIdx

/-- The left operand's index at (n, o) and k is (n, k). -/
theorem left_index (n : Fin 50000) (o : Fin 128) (k : Fin 128) : lidx_main_v13 (ix2 n o) k = ix2 n k :=
  funext fun a => Fin.ext (by match a with | ⟨0, _⟩ => rfl | ⟨1, _⟩ => rfl)

/-- The right operand's index at (n, o) and k is (o, k). -/
theorem right_index (n : Fin 50000) (o : Fin 128) (k : Fin 128) : ridx_main_v13 (ix2 n o) k = ix2 o k :=
  funext fun a => Fin.ext (by match a with | ⟨0, _⟩ => rfl | ⟨1, _⟩ => rfl)

/-- The reference's product is the linear stage of its aggregated array and the weight. -/
theorem result_is_lin (x0 : (⟨S50000x128, .f32⟩ : BufTy).Contents (Elt Ideal)) (x1 : (⟨S640000, .f32⟩ : BufTy).Contents (Elt Ideal))
    (x2 x3 : (⟨S640000, .i32⟩ : BufTy).Contents (Elt Ideal)) (x4 : (⟨S128x128, .f32⟩ : BufTy).Contents (Elt Ideal)) :
    val_main_v13 (F := Ideal) x0 x1 x2 x3 x4 = Cert.Linear.lin (val_main_v12 (F := Ideal) x0 x1 x2 x3) x4 := by
  funext i
  obtain ⟨n, o, rfl⟩ : ∃ (n : Fin 50000) (o : Fin 128), i = ix2 n o := ⟨i 0, i 1, eq_ix2 i⟩
  rw [val_main_v13_apply]
  show ∑ k : Fin 128, val_main_v12 (F := Ideal) x0 x1 x2 x3 (lidx_main_v13 (ix2 n o) k) * x4 (ridx_main_v13 (ix2 n o) k)
    = ∑ k : Fin 128, val_main_v12 (F := Ideal) x0 x1 x2 x3 (ix2 n k) * x4 (ix2 o k)
  refine Finset.sum_congr rfl fun k _ => ?_
  rw [left_index, right_index]

end Cert.ReferenceIdeal.LinValue

end
-- ==== Proof.Bridge.lean ====
/-
  The two programs compute one function of the arguments.

  Both programs build the aggregated array A the same way, operation for operation: a source index below zero is
  wrapped by adding 50000, the indexed rows of the node embeddings are gathered, each gathered row is scaled by its
  edge's weight, and the scaled rows are added into the rows their destination indices name, starting from zeros. So A
  is one term of the arguments on both sides, and it is never opened here. On top of A the kernel's result is the linear
  stage  Σ_k A(n, k) · W(o, k)  assembled from ten row blocks against the transposed weight, and the reference's result is
  the same sum taken in one product; the two agree entry by entry on the extended reals, with no condition on the
  inputs: the sum over k is the same sum, term for term.
-/
import proofs.«119766_j7851200217799_1_alg».proof.Defs
import proofs.«119766_j7851200217799_1_alg».proof.Proof.Gen.Pre_finite_inputs
import proofs.«119766_j7851200217799_1_alg».proof.Proof.KernelRun
import proofs.«119766_j7851200217799_1_alg».proof.Proof.ReferenceLinear

noncomputable section

namespace Cert.Bridge

open Idealize.ShloMosaic Idealize.ShloMosaic.TcCoe Idealize.SL.Sem Idealize.ShloMosaic.StableHlo

/-- The aggregated array the kernel's region finds is the reference's aggregated array of the same arguments. -/
theorem agg_eq (m : (ℓ : Loc Cert.KernelIdeal.nD Cert.KernelIdeal.τ Cert.KernelIdeal.sig) → Buf (Elt Ideal) ℓ)
    (c : Dev Cert.KernelIdeal.nD) :
    Cert.KernelIdeal.LinValue.aggArr m c
      = Cert.ReferenceIdeal.Read.val_main_v12 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  dsimp only [Cert.KernelIdeal.LinValue.aggArr, Cert.KernelIdeal.Gen.V, Cert.KernelIdeal.Gen.hostOps0]
  after_results <;> rfl

/-- From memories that agree on the arguments both programs run, and both result arrays end at the linear stage of the
    one aggregated array and the weight. -/
theorem algebraic : Cert.algebraic_KernelIdeal_ReferenceIdeal := by
  intro m ρ m' ρ' _ hagree
  refine ⟨fun c => Cert.Linear.lin (Cert.KernelIdeal.LinValue.aggArr m c)
      (m ((c.tc : Thread Cert.KernelIdeal.nD Cert.KernelIdeal.τ).loc Cert.KernelIdeal.main_arg4)),
    Cert.KernelIdeal.LinValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.LinValue.result_is_lin,
    (hagree c).1, (hagree c).2.1, (hagree c).2.2.1, (hagree c).2.2.2.1, (hagree c).2.2.2.2]
  show _ = Cert.Linear.lin (Cert.KernelIdeal.LinValue.aggArr m c)
    (m ((c.tc : Thread Cert.KernelIdeal.nD Cert.KernelIdeal.τ).loc Cert.KernelIdeal.main_arg4))
  rw [agg_eq]

end Cert.Bridge

end
-- ==== Proof.lean ====
/-
  A weighted graph layer: messages  node_emb[src] · edge_weight  are summed into their destination nodes, giving the
  aggregated array A of shape [50000, 128], and every node's row is then mapped linearly,
      out(n, o) = Σ_k A(n, k) · W(o, k).
  The kernel's program and the reference build A by the same host operations and differ only in the linear stage: the
  kernel transposes W on the host and multiplies A against it 5000 rows at a time on the matrix unit, narrowing both
  operands to bf16 (the identity on the extended reals) and accumulating from zero; the reference contracts the second
  axis of A with the second axis of W in one product. At every entry both are the same sum over k, so the results are
  equal as extended reals whatever the inputs are: no law that fails at an infinity is used.

  The three frame claims are the generated frames (the reference's from its generated run); the idealization rewrote no
  operation, so there is nothing to preserve beyond the program's own text; the value claim is `Cert.Bridge.algebraic`.
-/
import proofs.«119766_j7851200217799_1_alg».proof.Defs
import proofs.«119766_j7851200217799_1_alg».proof.Proof.Gen.Kernel
import proofs.«119766_j7851200217799_1_alg».proof.Proof.Gen.Kernel.Skeleton
import proofs.«119766_j7851200217799_1_alg».proof.Proof.Gen.Kernel.Launch
import proofs.«119766_j7851200217799_1_alg».proof.Proof.Gen.Kernel.Points
import proofs.«119766_j7851200217799_1_alg».proof.Proof.Gen.Kernel.Frame
import proofs.«119766_j7851200217799_1_alg».proof.Proof.Gen.KernelIdeal
import proofs.«119766_j7851200217799_1_alg».proof.Proof.Gen.KernelIdeal.Skeleton
import proofs.«119766_j7851200217799_1_alg».proof.Proof.Gen.KernelIdeal.Launch
import proofs.«119766_j7851200217799_1_alg».proof.Proof.Gen.KernelIdeal.Points
import proofs.«119766_j7851200217799_1_alg».proof.Proof.Gen.KernelIdeal.Frame
import proofs.«119766_j7851200217799_1_alg».proof.Proof.Gen.ReferenceIdeal
import proofs.«119766_j7851200217799_1_alg».proof.Proof.Gen.Pre_finite_inputs
import proofs.«119766_j7851200217799_1_alg».proof.Proof.Gen.KernelIdeal.Value
import proofs.«119766_j7851200217799_1_alg».proof.Proof.Gen.ReferenceIdeal.Run
import proofs.«119766_j7851200217799_1_alg».proof.Proof.Gen.ReferenceIdeal.Read
import proofs.«119766_j7851200217799_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, Cert.Bridge.algebraic⟩

end Cert.Proof

end
